-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 82
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x256, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x256, .f32⟩
  | .hbm, ⟨49, _⟩ => ⟨S850000x1, .f32⟩
  | .hbm, ⟨50, _⟩ => ⟨S850000x256, .f32⟩
  | .hbm, ⟨51, _⟩ => ⟨S850000x256, .f32⟩
  | .hbm, ⟨52, _⟩ => ⟨S_, .f32⟩
  | .hbm, ⟨53, _⟩ => ⟨S50000x256, .f32⟩
  | .hbm, ⟨54, _⟩ => ⟨S850000x1, .i32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S50000x128, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x128, .f32⟩
  | .hbm, ⟨72, _⟩ => ⟨S850000x1, .f32⟩
  | .hbm, ⟨73, _⟩ => ⟨S850000x128, .f32⟩
  | .hbm, ⟨74, _⟩ => ⟨S850000x128, .f32⟩
  | .hbm, ⟨75, _⟩ => ⟨S_, .f32⟩
  | .hbm, ⟨76, _⟩ => ⟨S50000x128, .f32⟩
  | .hbm, ⟨77, _⟩ => ⟨S850000x1, .i32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000x256, .f32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x256, .f32⟩
  | .hbm, ⟨50, _⟩ => ⟨S850000x1, .f32⟩
  | .hbm, ⟨51, _⟩ => ⟨S850000x256, .f32⟩
  | .hbm, ⟨52, _⟩ => ⟨S850000x256, .f32⟩
  | .hbm, ⟨53, _⟩ => ⟨S_, .f32⟩
  | .hbm, ⟨54, _⟩ => ⟨S50000x256, .f32⟩
  | .hbm, ⟨55, _⟩ => ⟨S850000x1, .i32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x128, .f32⟩
  | .hbm, ⟨64, _⟩ => ⟨S1x800000, .i32⟩
  | .hbm, ⟨65, _⟩ => ⟨S800000, .i32⟩
  | .hbm, ⟨66, _⟩ => ⟨S50000, .i32⟩
  | .hbm, ⟨67, _⟩ => ⟨S850000, .i32⟩
  | .hbm, ⟨68, _⟩ => ⟨S1x800000, .i32⟩
  | .hbm, ⟨69, _⟩ => ⟨S800000, .i32⟩
  | .hbm, ⟨70, _⟩ => ⟨S50000, .i32⟩
  | .hbm, ⟨71, _⟩ => ⟨S850000, .i32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S50000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000, .f32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x1, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_9 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_11 : Ref sig .tc := ⟨.hbm, 88, rfl⟩
abbrev main_v67 : Ref sig .tc := ⟨.hbm, 89, rfl⟩
abbrev main_v68 : Ref sig .tc := ⟨.hbm, 90, rfl⟩
abbrev main_c_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_13 : Ref sig .tc := ⟨.hbm, 98, rfl⟩
abbrev main_v75 : Ref sig .tc := ⟨.hbm, 99, rfl⟩
abbrev main_v76 : Ref sig .tc := ⟨.hbm, 100, rfl⟩
abbrev main_c_14 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The two-layer graph convolution as ONE function of the argument arrays.

  From the edge list `e` (two rows of 800000 node numbers) the sources and the targets are its rows, each
  followed by the self loops 0 … 49999. A node number below zero is moved up by 50000 before a row is looked up.
  The degree of a node is the number of edges that end in it (a scatter-add of ones over the targets), and an
  edge's weight is deg(source)^(-1/2) · deg(target)^(-1/2). A layer takes node features `h`, looks up the row of
  each edge's source, scales it by the edge's weight, adds it into the row of the edge's target, and adds the bias.
  The network is layer(relu(layer(x · W₁) ) · W₂), the two dense products being plain matrix products
  (entry (r, c) the sum over k of the left operand at (r, k) times the right operand at (k, c)).
-/
import proofs.«174007_j58720792871577_1_alg».proof.Proof.Gen.KernelIdeal
import Idealize.ShloMosaic.PureOps.Ideal
import Idealize.ShloMosaic.Lib.ValueIdx

noncomputable section

open scoped BigOperators

namespace Cert.Gcn

open Idealize.ShloMosaic Idealize.ShloMosaic.ValueIdx Cert.KernelIdeal Cert.KernelIdeal.Facts₀ Cert.KernelIdeal.Facts

variable {F : FTy → Type} [FloatOps F]

/-- The sources: row 0 of the edge list, then the self loops. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The targets: row 1 of the edge list, then the self loops. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number below zero counts from the end: 50000 is added to it. -/
def wrap (i : (⟨S850000, .i32⟩ : BufTy).Contents (Elt F)) : (⟨S850000, .i32⟩ : BufTy).Contents (Elt F) :=
  select (cmpi .slt i (broadcastInDim S850000 ![] bcast_S_S850000 (constantI S_ 32 0#32)))
    (addi i (broadcastInDim S850000 ![] bcast_S_S850000 (constantI S_ 32 50000#32))) i

/-- deg^(-1/2), the degree of a node being the number of edges that end in it. -/
def degInvSqrt (dst : (⟨S850000, .i32⟩ : BufTy).Contents (Elt F)) : (⟨S50000, .f32⟩ : BufTy).Contents (Elt F) :=
  Host.rsqrt (Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32)))

/-- An edge's weight: deg(source)^(-1/2) · deg(target)^(-1/2). -/
def edgeWeight (src dst : (⟨S850000, .i32⟩ : BufTy).Contents (Elt F)) : (⟨S850000, .f32⟩ : BufTy).Contents (Elt F) :=
  mulf (Host.gather gather_S50000_S850000x1_S850000_n_0_n_n_0_1_1 (degInvSqrt dst) (broadcastInDim S850000x1 ![0] bcast_S850000_S850000x1_0 (wrap src)))
    (Host.gather gather_S50000_S850000x1_S850000_n_0_n_n_0_1_1 (degInvSqrt dst) (broadcastInDim S850000x1 ![0] bcast_S850000_S850000x1_0 (wrap dst)))

/-- The first layer's aggregation, 256 features wide: each edge carries its source's row, scaled by the edge's
    weight, into its target's row; then the bias. -/
def aggregate256 (h : (⟨S50000x256, .f32⟩ : BufTy).Contents (Elt F)) (src dst : (⟨S850000, .i32⟩ : BufTy).Contents (Elt F))
    (wt : (⟨S850000, .f32⟩ : BufTy).Contents (Elt F)) (b : (⟨S256, .f32⟩ : BufTy).Contents (Elt F)) :
    (⟨S50000x256, .f32⟩ : BufTy).Contents (Elt F) :=
  addf (Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 h (broadcastInDim S850000x1 ![0] bcast_S850000_S850000x1_0 (wrap src))) (broadcastInDim S850000x256 ![0, 1] bcast_S850000x1_S850000x256_0_1 (broadcastInDim S850000x1 ![0] bcast_S850000_S850000x1_0 wt))))
    (broadcastInDim S50000x256 ![0, 1] bcast_S1x256_S50000x256_0_1 (broadcastInDim S1x256 ![1] bcast_S256_S1x256_1 b))

/-- The second layer's aggregation, 128 features wide. -/
def aggregate128 (h : (⟨S50000x128, .f32⟩ : BufTy).Contents (Elt F)) (src dst : (⟨S850000, .i32⟩ : BufTy).Contents (Elt F))
    (wt : (⟨S850000, .f32⟩ : BufTy).Contents (Elt F)) (b : (⟨S128, .f32⟩ : BufTy).Contents (Elt F)) :
    (⟨S50000x128, .f32⟩ : BufTy).Contents (Elt F) :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (wrap src))) (broadcastInDim S850000x128 ![0, 1] bcast_S850000x1_S850000x128_0_1 (broadcastInDim S850000x1 ![0] bcast_S850000_S850000x1_0 wt))))
    (broadcastInDim S50000x128 ![0, 1] bcast_S1x128_S50000x128_0_1 (broadcastInDim S1x128 ![1] bcast_S128_S1x128_1 b))

/-- max(h, 0), entry by entry. -/
def relu (h : (⟨S50000x256, .f32⟩ : BufTy).Contents (Elt F)) : (⟨S50000x256, .f32⟩ : BufTy).Contents (Elt F) :=
  maximumf h (broadcastInDim S50000x256 ![] bcast_S_S50000x256 (constant S_ .f32 0x00000000#32))

/-- The plain matrix product over the extended reals: entry (r, c) is the sum over k of x(r, k) · w(k, c). -/
def matProd {R K C : Nat} (x : FVec Ideal ⟨2, ![R, K]⟩ .f32) (w : FVec Ideal ⟨2, ![K, C]⟩ .f32) : FVec Ideal ⟨2, ![R, C]⟩ .f32 :=
  fun j => ∑ k : Fin K, x (ix2 (j 0) k) * w (ix2 k (j 1))

theorem matProd_at {R K C : Nat} (x : FVec Ideal ⟨2, ![R, K]⟩ .f32) (w : FVec Ideal ⟨2, ![K, C]⟩ .f32) (r : Fin R) (c : Fin C) :
    matProd x w (ix2 r c) = ∑ k : Fin K, x (ix2 r k) * w (ix2 k c) := rfl

/-- The network: layer 2 of relu of layer 1, each layer a plain product followed by the aggregation over the edges. -/
def gcn (x : (⟨S50000x512, .f32⟩ : BufTy).Contents (Elt Ideal)) (e : (⟨S2x800000, .i32⟩ : BufTy).Contents (Elt Ideal))
    (w1 : (⟨S512x256, .f32⟩ : BufTy).Contents (Elt Ideal)) (b1 : (⟨S256, .f32⟩ : BufTy).Contents (Elt Ideal))
    (w2 : (⟨S256x128, .f32⟩ : BufTy).Contents (Elt Ideal)) (b2 : (⟨S128, .f32⟩ : BufTy).Contents (Elt Ideal)) :
    (⟨S50000x128, .f32⟩ : BufTy).Contents (Elt Ideal) :=
  aggregate128 (matProd (relu (aggregate256 (matProd x w1) (srcOf e) (dstOf e) (edgeWeight (srcOf e) (dstOf e)) b1)) w2)
    (srcOf e) (dstOf e) (edgeWeight (srcOf e) (dstOf e)) b2

end Cert.Gcn

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.Stretches.lean ====
/-
  The host stretches of the kernel program's @main, each read back as one function of the buffer contents it starts
  from (`X`, whatever they are): the first stretch builds the sources, the targets and the edge weights from the
  edge list; the stretch after the first pallas_call is the first layer's aggregation of the call's output; the next
  is the relu; the stretch after the second pallas_call is the second layer's aggregation. Each operation writes its
  own buffer from its operands' buffers, so the contents of a stretch's last buffer are the operations' composite.
-/
import proofs.«174007_j58720792871577_1_alg».proof.Proof.Gen.KernelIdeal.Launch
import proofs.«174007_j58720792871577_1_alg».proof.Proof.Spec
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen Cert.Gcn

variable {F : FTy → Type} [FloatOps F] (X : Valuation τ sig (Elt F))

set_option maxHeartbeats 4000000 in
/-- The first stretch leaves the sources: row 0 of the edge list, then the self loops. -/
theorem sources : StableHlo.after hostOps0 X (Proc.devRef .tc main_v3) = srcOf (X (Proc.devRef .tc main_arg1)) := by
  after_results_simp <;> rfl

set_option maxHeartbeats 4000000 in
/-- The first stretch leaves the targets: row 1 of the edge list, then the self loops. -/
theorem targets : StableHlo.after hostOps0 X (Proc.devRef .tc main_v6) = dstOf (X (Proc.devRef .tc main_arg1)) := by
  after_results_simp <;> rfl

set_option maxHeartbeats 4000000 in
/-- The first stretch leaves the edge weights. -/
theorem weights : StableHlo.after hostOps0 X (Proc.devRef .tc main_v26)
    = edgeWeight (srcOf (X (Proc.devRef .tc main_arg1))) (dstOf (X (Proc.devRef .tc main_arg1))) := by
  after_results_simp <;> rfl

set_option maxHeartbeats 4000000 in
/-- The stretch after the first call: the first layer's aggregation. -/
theorem layer1 : StableHlo.after hostOps1 X (Proc.devRef .tc main_v43)
    = aggregate256 (X (Proc.devRef .tc main_v27)) (X (Proc.devRef .tc main_v3)) (X (Proc.devRef .tc main_v6))
        (X (Proc.devRef .tc main_v26)) (X (Proc.devRef .tc main_arg3)) := by
  after_results_simp <;> rfl

set_option maxHeartbeats 4000000 in
/-- The relu. -/
theorem relu_of : StableHlo.after hostOps1_1 X (Proc.devRef .tc main_v44) = relu (X (Proc.devRef .tc main_v43)) := by
  after_results_simp <;> rfl

set_option maxHeartbeats 4000000 in
/-- The stretch after the second call: the second layer's aggregation. -/
theorem layer2 : StableHlo.after hostOps2 X (Proc.devRef .tc main_v61)
    = aggregate128 (X (Proc.devRef .tc main_v45)) (X (Proc.devRef .tc main_v3)) (X (Proc.devRef .tc main_v6))
        (X (Proc.devRef .tc main_v26)) (X (Proc.devRef .tc main_arg5)) := by
  after_results_simp <;> rfl

end Cert.KernelIdeal.Stretch

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Dense0.lean ====
/-
  What pallas_call 0 leaves in its output array, over the extended reals: the plain matrix product of its two
  operand arrays as the call finds them. Grid point t handles rows 2000·t … 2000·t + 1999: it reads that block of
  rows of the left operand and the whole right operand, multiplies them on the matrix unit into a zero accumulator
  (the narrowing of the operands to bfloat16 changes nothing over the extended reals), and writes the block of rows
  of the product back. Entry (p, q) of the block is the sum over k of left(2000·t + p, k) · right(k, q), which is entry
  (2000·t + p, q) of the product of the whole arrays; the 25 blocks cover all 50000 rows.
-/
import proofs.«174007_j58720792871577_1_alg».proof.Proof.Gen.KernelIdeal.Frame
import proofs.«174007_j58720792871577_1_alg».proof.Proof.Spec
import proofs.«174007_j58720792871577_1_alg».proof.Proof.LibDot
import Idealize.ShloMosaic.Lib.Pipeline.Value
import Idealize.ShloMosaic.PureOps.Ideal.Laws

set_option maxRecDepth 16384

noncomputable section

open scoped BigOperators

namespace Cert.KernelIdeal.Dense0

open Idealize.ShloMosaic Idealize.ShloMosaic.TcCoe Idealize.ShloMosaic.ValueIdx Idealize.SL.Sem
open Cert.KernelIdeal Cert.KernelIdeal.Gen Cert.Gcn
open Idealize.ShloMosaic.Pipeline (Dat Cfg Window)

variable (V : (c : Dev nD) → (b : Ref sig .tc) → Buf (Elt Ideal) ((c : Thread nD τ).loc b))

theorem origin_eq : (![0, 0] : Fin 2 → Nat) = fun _ => 0 := funext fun a => by fin_cases a <;> rfl

/-- The body's product at entry (p, q) of its block: the sum over k of left(p, k) · right(k, q). -/
theorem payload_at (x0 : Vec Ideal S2000x512 .f32) (x1 : Vec Ideal S512x256 .f32) (p : Fin 2000) (q : Fin 256) :
    k0_pay1 x0 x1 (ix2 p q) = ∑ k : Fin 512, x0 (ix2 p k) * x1 (ix2 k q) := by
  unfold k0_pay1
  exact Cert.LibDot.matmul_zero_at dot_S2000x512_S512x256_S2000x256_1_0_0_1_n_n rfl rfl rfl rfl rfl rfl none _ _ p q

/-- The index maps over the grid: the left operand's and the output's row blocks are block t, every column block
    is block 0, the right operand's only block is block 0. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point t writes back is block t of the plain product of the operand arrays. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero origin_eq]
  simp only [View.ld_unit_zero (S := S2000x512) origin_eq, View.ld_unit_zero (S := S512x256) origin_eq]
  funext j
  obtain ⟨p, q, rfl⟩ : ∃ (p : Fin 2000) (q : Fin 256), j = ix2 p q := ⟨j 0, j 1, eq_ix2 j⟩
  show k0_pay1 (iblk0 V c 0 t) (iblk0 V c 1 t) (ix2 p q) = matProd (V c main_arg0) (V c main_arg2) (((cfg0.win 2).blk t).view.emb (ix2 p q))
  refine (payload_at (iblk0 V c 0 t) (iblk0 V c 1 t) p q).trans ?_
  unfold matProd
  refine Finset.sum_congr rfl fun k _ => ?_
  obtain ⟨e0, e1, e2, e3, e4, e5⟩ := index_facts t
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  refine congr (congrArg _ ?_) ?_
  · show V c main_arg0 (((cfg0.win 0).blk t).view.emb (ix2 p k)) = _
    rw [hx]; rfl
  · show V c main_arg2 (((cfg0.win 1).blk t).view.emb (ix2 k q)) = _
    rw [hw]; rfl

/-- An entry of the output array is in grid point t's block iff each coordinate is in the block's range. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v27).slice (win0_2.rect t)).set ↔ _
  rw [View.set_slice_whole, Rect.mem_set_unit]
  exact Iff.rfl

/-- Row r lies in the block of grid point r / 2000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : (i 0).val / 2000 < cfg0.N := by
    show (i 0).val / 2000 < grid0.N
    rw [N_0]; omega
  refine ⟨⟨(i 0).val / 2000, hN⟩, flush0_2 _, ?_⟩
  rw [mem_block]
  obtain ⟨e0, e1, e2, e3, e4, e5⟩ := index_facts ⟨(i 0).val / 2000, hN⟩
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e5]; show (i 0).val / 2000 * 2000 ≤ (i 0).val ∧ (i 0).val < (i 0).val / 2000 * 2000 + 2000; omega
  | ⟨1, _⟩ =>
    show win0_2.index ⟨(i 0).val / 2000, hN⟩ (1 : Fin 2) * 256 ≤ (i 1).val ∧ (i 1).val < win0_2.index ⟨(i 0).val / 2000, hN⟩ (1 : Fin 2) * 256 + 256
    rw [e4]; omega

/-- The output array after the call: the plain product of the operand arrays as the call finds them. -/
theorem array_eq (c : Dev nD) : (dat0 V c).arrAt 2 cfg0.N = matProd (V c main_arg0) (V c main_arg2) :=
  (dat0 V c).arrAt_eq_of_cover 2 (matProd (V c main_arg0) (V c main_arg2)) (fun t _ => flushed_eq V c t) covered

end Cert.KernelIdeal.Dense0

end
-- ==== Proof.Dense1.lean ====
/-
  What pallas_call 1 leaves in its output array, over the extended reals: the plain matrix product of its two
  operand arrays as the call finds them. Grid point t handles rows 2000·t … 2000·t + 1999: it reads that block of
  rows of the left operand and the whole right operand, multiplies them on the matrix unit into a zero accumulator
  (the narrowing of the operands to bfloat16 changes nothing over the extended reals, and the left block is first
  recast to its own shape, which is the identity), and writes the block of rows
  of the product back. Entry (p, q) of the block is the sum over k of left(2000·t + p, k) · right(k, q), which is entry
  (2000·t + p, q) of the product of the whole arrays; the 25 blocks cover all 50000 rows.
-/
import proofs.«174007_j58720792871577_1_alg».proof.Proof.Gen.KernelIdeal.Frame
import proofs.«174007_j58720792871577_1_alg».proof.Proof.Spec
import proofs.«174007_j58720792871577_1_alg».proof.Proof.LibDot
import Idealize.ShloMosaic.Lib.Pipeline.Value
import Idealize.ShloMosaic.PureOps.Ideal.Laws

set_option maxRecDepth 16384

noncomputable section

open scoped BigOperators

namespace Cert.KernelIdeal.Dense1

open Idealize.ShloMosaic Idealize.ShloMosaic.TcCoe Idealize.ShloMosaic.ValueIdx Idealize.SL.Sem
open Cert.KernelIdeal Cert.KernelIdeal.Gen Cert.Gcn
open Idealize.ShloMosaic.Pipeline (Dat Cfg Window)

variable (V : (c : Dev nD) → (b : Ref sig .tc) → Buf (Elt Ideal) ((c : Thread nD τ).loc b))

theorem origin_eq : (![0, 0] : Fin 2 → Nat) = fun _ => 0 := funext fun a => by fin_cases a <;> rfl

/-- The body's product at entry (p, q) of its block: the sum over k of left(p, k) · right(k, q). -/
theorem payload_at (x0 : Vec Ideal S2000x256 .f32) (x1 : Vec Ideal S256x128 .f32) (p : Fin 2000) (q : Fin 128) :
    k1_pay1 x0 x1 (ix2 p q) = ∑ k : Fin 256, x0 (ix2 p k) * x1 (ix2 k q) := by
  unfold k1_pay1
  rw [shapeCast_self]
  exact Cert.LibDot.matmul_zero_at dot_S2000x256_S256x128_S2000x128_1_0_0_1_n_n rfl rfl rfl rfl rfl rfl none _ _ p q

/-- The index maps over the grid: the left operand's and the output's row blocks are block t, every column block
    is block 0, the right operand's only block is block 0. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What grid point t writes back is block t of the plain product of the operand arrays. -/
theorem flushed_eq (c : Dev nD) (t : Fin cfg1.N) :
    (dat1 V c).flushed 2 t = ((cfg1.win 2).blk t).view.read (Elt Ideal) (matProd (V c main_v44) (V c main_arg4)) := by
  show (cfg1.win 2).cut (grid1.coords t) ((dat1 V c).after 2 t) = _
  rw [after1_2]
  unfold out1_2
  rw [View.canon_unit_zero origin_eq]
  simp only [View.ld_unit_zero (S := S2000x256) origin_eq, View.ld_unit_zero (S := S256x128) origin_eq]
  funext j
  obtain ⟨p, q, rfl⟩ : ∃ (p : Fin 2000) (q : Fin 128), j = ix2 p q := ⟨j 0, j 1, eq_ix2 j⟩
  show k1_pay1 (iblk1 V c 0 t) (iblk1 V c 1 t) (ix2 p q) = matProd (V c main_v44) (V c main_arg4) (((cfg1.win 2).blk t).view.emb (ix2 p q))
  refine (payload_at (iblk1 V c 0 t) (iblk1 V c 1 t) p q).trans ?_
  unfold matProd
  refine Finset.sum_congr rfl fun k _ => ?_
  obtain ⟨e0, e1, e2, e3, e4, e5⟩ := index_facts t
  have hx : ((cfg1.win 0).blk t).view.emb (ix2 p k) = ix2 ((((cfg1.win 2).blk t).view.emb (ix2 p q)) 0) k := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * k.val = k.val; omega
  have hw : ((cfg1.win 1).blk t).view.emb (ix2 k q) = ix2 k ((((cfg1.win 2).blk t).view.emb (ix2 p q)) 1) := by
    funext a; apply Fin.ext
    match a with
    | ⟨0, _⟩ => show win1_1.index t (0 : Fin 2) * 256 + 1 * k.val = k.val; omega
    | ⟨1, _⟩ => show win1_1.index t (1 : Fin 2) * 128 + 1 * q.val = win1_2.index t (1 : Fin 2) * 128 + 1 * q.val; omega
  refine congr (congrArg _ ?_) ?_
  · show V c main_v44 (((cfg1.win 0).blk t).view.emb (ix2 p k)) = _
    rw [hx]; rfl
  · show V c main_arg4 (((cfg1.win 1).blk t).view.emb (ix2 k q)) = _
    rw [hw]; rfl

/-- An entry of the output array is in grid point t's block iff each coordinate is in the block's range. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Row r lies in the block of grid point r / 2000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 2000 < cfg1.N := by
    show (i 0).val / 2000 < grid1.N
    rw [N_1]; omega
  refine ⟨⟨(i 0).val / 2000, hN⟩, flush1_2 _, ?_⟩
  rw [mem_block]
  obtain ⟨e0, e1, e2, e3, e4, e5⟩ := index_facts ⟨(i 0).val / 2000, hN⟩
  intro a
  match a with
  | ⟨0, _⟩ =>
    show win1_2.index ⟨(i 0).val / 2000, hN⟩ (0 : Fin 2) * 2000 ≤ (i 0).val ∧ (i 0).val < win1_2.index ⟨(i 0).val / 2000, hN⟩ (0 : Fin 2) * 2000 + 2000
    rw [e5]; show (i 0).val / 2000 * 2000 ≤ (i 0).val ∧ (i 0).val < (i 0).val / 2000 * 2000 + 2000; omega
  | ⟨1, _⟩ =>
    show win1_2.index ⟨(i 0).val / 2000, hN⟩ (1 : Fin 2) * 128 ≤ (i 1).val ∧ (i 1).val < win1_2.index ⟨(i 0).val / 2000, hN⟩ (1 : Fin 2) * 128 + 128
    rw [e4]; omega

/-- The output array after the call: the plain product of the operand arrays as the call finds them. -/
theorem array_eq (c : Dev nD) : (dat1 V c).arrAt 2 cfg1.N = matProd (V c main_v44) (V c main_arg4) :=
  (dat1 V c).arrAt_eq_of_cover 2 (matProd (V c main_v44) (V c main_arg4)) (fun t _ => flushed_eq V c t) covered

end Cert.KernelIdeal.Dense1

end
-- ==== Proof.KernelValue.lean ====
/-
  The kernel program's result is the network function of the argument arrays.

  @main is five stretches of host operations around two pallas_calls. Reading the buffer contents at each boundary:
  the first stretch builds, from the edge list alone, the sources, the targets and the edge weights; the first call
  leaves the plain product x · W₁; the second stretch aggregates it over the edges and adds the bias; the third is
  the relu; the second call leaves the plain product of that with W₂; the last stretch aggregates again. Between
  the places where they are written and read, the sources, the targets, the edge weights and the arguments are
  touched by nothing: no stretch in between writes them and neither call has them as a window.
-/
import proofs.«174007_j58720792871577_1_alg».proof.Proof.Gen.KernelIdeal.Frame
import proofs.«174007_j58720792871577_1_alg».proof.Proof.Spec
import proofs.«174007_j58720792871577_1_alg».proof.Proof.LibKeep
import proofs.«174007_j58720792871577_1_alg».proof.Proof.Stretches
import proofs.«174007_j58720792871577_1_alg».proof.Proof.Dense0
import proofs.«174007_j58720792871577_1_alg».proof.Proof.Dense1
import Idealize.ShloMosaic.Lib.StableHlo.Run

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Gcn Cert.LibKeep

variable (m : (ℓ : Loc nD τ sig) → Buf (Elt Ideal) ℓ) (ρ : Dev nD → PrngReg)

/-! ## The first stretch: sources, targets, edge weights, from the edge list -/

theorem src_1 (c : Dev nD) : W1 m ρ c (Proc.devRef .tc main_v3) = srcOf (m ((c : Thread nD τ).loc main_arg1)) :=
  Cert.KernelIdeal.Stretch.sources (W0 m ρ c)

theorem dst_1 (c : Dev nD) : W1 m ρ c (Proc.devRef .tc main_v6) = dstOf (m ((c : Thread nD τ).loc main_arg1)) :=
  Cert.KernelIdeal.Stretch.targets (W0 m ρ c)

theorem wt_1 (c : Dev nD) : W1 m ρ c (Proc.devRef .tc main_v26)
    = edgeWeight (srcOf (m ((c : Thread nD τ).loc main_arg1))) (dstOf (m ((c : Thread nD τ).loc main_arg1))) :=
  Cert.KernelIdeal.Stretch.weights (W0 m ρ c)

/-- The first stretch writes no argument. -/
theorem arg0_1 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by kept_host hostOps0).trans rfl
theorem arg2_1 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by kept_host hostOps0).trans rfl
theorem arg3_1 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by kept_host hostOps0).trans rfl
theorem arg4_1 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) by kept_host hostOps0).trans rfl
theorem arg5_1 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by kept_host hostOps0).trans rfl

/-! ## The first call: x · W₁ -/

theorem prod_2 (c : Dev nD) : W2 m ρ c (Proc.devRef .tc main_v27)
    = matProd (m ((c : Thread nD τ).loc main_arg0)) (m ((c : Thread nD τ).loc main_arg2)) := by
  refine (W2_arr m ρ c 2).trans ((Cert.KernelIdeal.Dense0.array_eq (V1 m ρ) c).trans ?_)
  show matProd (W1 m ρ c (Proc.devRef .tc main_arg0)) (W1 m ρ c (Proc.devRef .tc main_arg2)) = _
  rw [arg0_1, arg2_1]

/-- The first call has none of these buffers as a window. -/
theorem src_2 (c : Dev nD) : W2 m ρ c (Proc.devRef .tc main_v3) = srcOf (m ((c : Thread nD τ).loc main_arg1)) :=
  (W2_of_ne m ρ c main_v3 (by decide)).trans (src_1 m ρ c)
theorem dst_2 (c : Dev nD) : W2 m ρ c (Proc.devRef .tc main_v6) = dstOf (m ((c : Thread nD τ).loc main_arg1)) :=
  (W2_of_ne m ρ c main_v6 (by decide)).trans (dst_1 m ρ c)
theorem wt_2 (c : Dev nD) : W2 m ρ c (Proc.devRef .tc main_v26)
    = edgeWeight (srcOf (m ((c : Thread nD τ).loc main_arg1))) (dstOf (m ((c : Thread nD τ).loc main_arg1))) :=
  (W2_of_ne m ρ c main_v26 (by decide)).trans (wt_1 m ρ c)
theorem arg3_2 (c : Dev nD) : W2 m ρ c (Proc.devRef .tc main_arg3) = m ((c : Thread nD τ).loc main_arg3) :=
  (W2_of_ne m ρ c main_arg3 (by decide)).trans (arg3_1 m ρ c)
theorem arg4_2 (c : Dev nD) : W2 m ρ c (Proc.devRef .tc main_arg4) = m ((c : Thread nD τ).loc main_arg4) :=
  (W2_of_ne m ρ c main_arg4 (by decide)).trans (arg4_1 m ρ c)
theorem arg5_2 (c : Dev nD) : W2 m ρ c (Proc.devRef .tc main_arg5) = m ((c : Thread nD τ).loc main_arg5) :=
  (W2_of_ne m ρ c main_arg5 (by decide)).trans (arg5_1 m ρ c)

/-! ## The second stretch: the first layer's aggregation -/

theorem layer1_3 (c : Dev nD) : W3 m ρ c (Proc.devRef .tc main_v43)
    = aggregate256 (W2 m ρ c (Proc.devRef .tc main_v27)) (W2 m ρ c (Proc.devRef .tc main_v3)) (W2 m ρ c (Proc.devRef .tc main_v6))
        (W2 m ρ c (Proc.devRef .tc main_v26)) (W2 m ρ c (Proc.devRef .tc main_arg3)) :=
  Cert.KernelIdeal.Stretch.layer1 (W2 m ρ c)

theorem src_3 (c : Dev nD) : W3 m ρ c (Proc.devRef .tc main_v3) = srcOf (m ((c : Thread nD τ).loc main_arg1)) :=
  (show StableHlo.after hostOps1 (W2 m ρ c) (Proc.devRef .tc main_v3) = W2 m ρ c (Proc.devRef .tc main_v3) by kept_host hostOps1).trans (src_2 m ρ c)
theorem dst_3 (c : Dev nD) : W3 m ρ c (Proc.devRef .tc main_v6) = dstOf (m ((c : Thread nD τ).loc main_arg1)) :=
  (show StableHlo.after hostOps1 (W2 m ρ c) (Proc.devRef .tc main_v6) = W2 m ρ c (Proc.devRef .tc main_v6) by kept_host hostOps1).trans (dst_2 m ρ c)
theorem wt_3 (c : Dev nD) : W3 m ρ c (Proc.devRef .tc main_v26)
    = edgeWeight (srcOf (m ((c : Thread nD τ).loc main_arg1))) (dstOf (m ((c : Thread nD τ).loc main_arg1))) :=
  (show StableHlo.after hostOps1 (W2 m ρ c) (Proc.devRef .tc main_v26) = W2 m ρ c (Proc.devRef .tc main_v26) by kept_host hostOps1).trans (wt_2 m ρ c)
theorem arg4_3 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by kept_host hostOps1).trans (arg4_2 m ρ c)
theorem arg5_3 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by kept_host hostOps1).trans (arg5_2 m ρ c)

/-! ## The third stretch: the relu -/

theorem relu_4 (c : Dev nD) : W4 m ρ c (Proc.devRef .tc main_v44) = relu (W3 m ρ c (Proc.devRef .tc main_v43)) :=
  Cert.KernelIdeal.Stretch.relu_of (W3 m ρ c)

theorem src_4 (c : Dev nD) : W4 m ρ c (Proc.devRef .tc main_v3) = srcOf (m ((c : Thread nD τ).loc main_arg1)) :=
  (show StableHlo.after hostOps1_1 (W3 m ρ c) (Proc.devRef .tc main_v3) = W3 m ρ c (Proc.devRef .tc main_v3) by kept_host hostOps1_1).trans (src_3 m ρ c)
theorem dst_4 (c : Dev nD) : W4 m ρ c (Proc.devRef .tc main_v6) = dstOf (m ((c : Thread nD τ).loc main_arg1)) :=
  (show StableHlo.after hostOps1_1 (W3 m ρ c) (Proc.devRef .tc main_v6) = W3 m ρ c (Proc.devRef .tc main_v6) by kept_host hostOps1_1).trans (dst_3 m ρ c)
theorem wt_4 (c : Dev nD) : W4 m ρ c (Proc.devRef .tc main_v26)
    = edgeWeight (srcOf (m ((c : Thread nD τ).loc main_arg1))) (dstOf (m ((c : Thread nD τ).loc main_arg1))) :=
  (show StableHlo.after hostOps1_1 (W3 m ρ c) (Proc.devRef .tc main_v26) = W3 m ρ c (Proc.devRef .tc main_v26) by kept_host hostOps1_1).trans (wt_3 m ρ c)
theorem arg4_4 (c : Dev nD) : W4 m ρ c (Proc.devRef .tc main_arg4) = m ((c : Thread nD τ).loc main_arg4) :=
  (show StableHlo.after hostOps1_1 (W3 m ρ c) (Proc.devRef .tc main_arg4) = W3 m ρ c (Proc.devRef .tc main_arg4) by kept_host hostOps1_1).trans (arg4_3 m ρ c)
theorem arg5_4 (c : Dev nD) : W4 m ρ c (Proc.devRef .tc main_arg5) = m ((c : Thread nD τ).loc main_arg5) :=
  (show StableHlo.after hostOps1_1 (W3 m ρ c) (Proc.devRef .tc main_arg5) = W3 m ρ c (Proc.devRef .tc main_arg5) by kept_host hostOps1_1).trans (arg5_3 m ρ c)

/-! ## The second call: (relu of layer 1) · W₂ -/

theorem prod_5 (c : Dev nD) : W5 m ρ c (Proc.devRef .tc main_v45)
    = matProd (W4 m ρ c (Proc.devRef .tc main_v44)) (m ((c : Thread nD τ).loc main_arg4)) := by
  refine (W5_arr m ρ c 2).trans ((Cert.KernelIdeal.Dense1.array_eq (V4 m ρ) c).trans ?_)
  show matProd (W4 m ρ c (Proc.devRef .tc main_v44)) (W4 m ρ c (Proc.devRef .tc main_arg4)) = _
  rw [arg4_4]

theorem src_5 (c : Dev nD) : W5 m ρ c (Proc.devRef .tc main_v3) = srcOf (m ((c : Thread nD τ).loc main_arg1)) :=
  (W5_of_ne m ρ c main_v3 (by decide)).trans (src_4 m ρ c)
theorem dst_5 (c : Dev nD) : W5 m ρ c (Proc.devRef .tc main_v6) = dstOf (m ((c : Thread nD τ).loc main_arg1)) :=
  (W5_of_ne m ρ c main_v6 (by decide)).trans (dst_4 m ρ c)
theorem wt_5 (c : Dev nD) : W5 m ρ c (Proc.devRef .tc main_v26)
    = edgeWeight (srcOf (m ((c : Thread nD τ).loc main_arg1))) (dstOf (m ((c : Thread nD τ).loc main_arg1))) :=
  (W5_of_ne m ρ c main_v26 (by decide)).trans (wt_4 m ρ c)
theorem arg5_5 (c : Dev nD) : W5 m ρ c (Proc.devRef .tc main_arg5) = m ((c : Thread nD τ).loc main_arg5) :=
  (W5_of_ne m ρ c main_arg5 (by decide)).trans (arg5_4 m ρ c)

/-! ## The last stretch: the second layer's aggregation -/

theorem layer2_6 (c : Dev nD) : W6 m ρ c (Proc.devRef .tc main_v61)
    = aggregate128 (W5 m ρ c (Proc.devRef .tc main_v45)) (W5 m ρ c (Proc.devRef .tc main_v3)) (W5 m ρ c (Proc.devRef .tc main_v6))
        (W5 m ρ c (Proc.devRef .tc main_v26)) (W5 m ρ c (Proc.devRef .tc main_arg5)) :=
  Cert.KernelIdeal.Stretch.layer2 (W5 m ρ c)

/-! ## The result -/

/-- The result buffer ends at the network function of the argument arrays. -/
theorem result_eq (c : Dev nD) : W6 m ρ c (Proc.devRef .tc main_v61)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [layer2_6, prod_5, relu_4, layer1_3, prod_2, src_5, dst_5, wt_5, arg5_5, src_2, dst_2, wt_2, arg3_2]
  rfl

end Cert.KernelIdeal.Value

end
-- ==== Proof.RefValue.lean ====
/-
  The reference computes the network function: its two dense products are plain matrix products, and around them
  it applies, operation for operation, the aggregation over the edges — the degrees and the edge weights are
  recomputed for the second layer from the same edge list, so they are the same terms.
-/
import proofs.«174007_j58720792871577_1_alg».proof.Proof.Gen.ReferenceIdeal.Run
import proofs.«174007_j58720792871577_1_alg».proof.Proof.Spec
import proofs.«174007_j58720792871577_1_alg».proof.Proof.LibDot

noncomputable section

namespace Cert.Gcn.Ref

open Idealize.ShloMosaic Idealize.ShloMosaic.ValueIdx

/-- The reference's first dense product is the plain matrix product. -/
theorem dot1_eq (x : FVec Ideal ⟨2, ![50000, 512]⟩ .f32) (w : FVec Ideal ⟨2, ![512, 256]⟩ .f32) :
    Host.dotGeneral Cert.ReferenceIdeal.dot_S50000x512_S512x256_S50000x256_1_0_0_1_n_n none x w = Cert.Gcn.matProd x w := by
  funext j
  obtain ⟨r, c, rfl⟩ : ∃ (r : Fin 50000) (c : Fin 256), j = ix2 r c := ⟨j 0, j 1, eq_ix2 j⟩
  rw [Cert.Gcn.matProd_at]
  simp only [Host.dotGeneral]
  exact Cert.LibDot.dotGeneral_at _ rfl rfl rfl rfl rfl rfl _ _ x w r c

/-- The reference's second dense product is the plain matrix product. -/
theorem dot2_eq (x : FVec Ideal ⟨2, ![50000, 256]⟩ .f32) (w : FVec Ideal ⟨2, ![256, 128]⟩ .f32) :
    Host.dotGeneral Cert.ReferenceIdeal.dot_S50000x256_S256x128_S50000x128_1_0_0_1_n_n none x w = Cert.Gcn.matProd x w := by
  funext j
  obtain ⟨r, c, rfl⟩ : ∃ (r : Fin 50000) (c : Fin 128), j = ix2 r c := ⟨j 0, j 1, eq_ix2 j⟩
  rw [Cert.Gcn.matProd_at]
  simp only [Host.dotGeneral]
  exact Cert.LibDot.dotGeneral_at _ rfl rfl rfl rfl rfl rfl _ _ x w r c

open Cert.ReferenceIdeal Cert.ReferenceIdeal.Gen Cert.ReferenceIdeal.Value Idealize.ShloMosaic.TcCoe Idealize.SL.Sem in
/-- The reference's result is the network function of the argument arrays. -/
theorem result_eq (m : (ℓ : Loc nD τ sig) → Buf (Elt Ideal) ℓ) (c : Dev nD) :
    res_out0 (F := Ideal) m c = Cert.Gcn.gcn (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_out0 res_main_v90
  rw [dot1_eq, dot2_eq]
  rfl

end Cert.Gcn.Ref

end
-- ==== Proof.lean ====
/-
  A two-layer graph convolution over 50000 nodes and 800000 edges (plus one self loop per node): the kernel program
  against its plain reference, over the extended reals.

  Both programs compute layer(relu(layer(x · W₁)) · W₂), where a layer looks up, for every edge, the row of its
  source, scales it by deg(source)^(-1/2) · deg(target)^(-1/2), adds it into the row of its target, and adds the bias.
  The edge bookkeeping (sources, targets, degrees, weights) and the aggregation are the same host operations in both
  programs, applied to the same edge list; the reference recomputes the degrees and weights for its second layer
  from the same edge list, so they are the same terms. The programs differ only in the two dense products: the
  reference's are whole-array products; the kernel program computes each 2000 rows at a time on the matrix unit,
  into a zero accumulator, after narrowing the operands to bfloat16 — which is the identity over the extended
  reals. Entry (r, c) of either is the sum over k of left(r, k) · right(k, c), and the 25 row blocks cover the
  array, so the products agree and with them everything after. No law beyond that is needed, and finiteness of the
  inputs is not used.

  The frames of the two kernel programs are the generated ones; the reference's frame is its generated run with
  the result dropped; the idealization rewrote nothing, so there is nothing to preserve.
-/
import proofs.«174007_j58720792871577_1_alg».proof.Defs
import proofs.«174007_j58720792871577_1_alg».proof.Proof.Gen.Kernel
import proofs.«174007_j58720792871577_1_alg».proof.Proof.Gen.Kernel.Frame
import proofs.«174007_j58720792871577_1_alg».proof.Proof.Gen.KernelIdeal
import proofs.«174007_j58720792871577_1_alg».proof.Proof.Gen.KernelIdeal.Frame
import proofs.«174007_j58720792871577_1_alg».proof.Proof.Gen.ReferenceIdeal
import proofs.«174007_j58720792871577_1_alg».proof.Proof.Gen.ReferenceIdeal.Run
import proofs.«174007_j58720792871577_1_alg».proof.Proof.Gen.Pre_finite_inputs
import proofs.«174007_j58720792871577_1_alg».proof.Proof.KernelRun
import proofs.«174007_j58720792871577_1_alg».proof.Proof.KernelValue
import proofs.«174007_j58720792871577_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both results are the network function of the argument arrays, and the argument arrays agree. -/
theorem algebraic : Cert.algebraic_KernelIdeal_ReferenceIdeal := by
  intro m ρ m' ρ' _ hagree
  refine ⟨_, Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.Gcn.Ref.result_eq m' c).trans ?_
  obtain ⟨h0, h1, h2, h3, h4, h5⟩ := hagree c
  rw [h0, h1, h2, h3, h4, h5]
  exact (Cert.KernelIdeal.Value.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
